-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S512x1024 : Shape := ⟨2, ![512, 1024]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  shapeCasts_S8192x4096_S4x2048x4096 : S8192x4096.ShapeCasts S4x2048x4096
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x4096.size a
  hwx0_2 : ∀ i : grid0.Coords, EltTy.bits .f32 = 32 ∨ (Rect.block (s := S8192x4096) S512x512.size (cc0_transform_2 i) (hinb0_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8192x4096 : Shape := ⟨2, ![8192, 4096]⟩
abbrev S615x4096 : Shape := ⟨2, ![615, 4096]⟩
abbrev S3481x4096 : Shape := ⟨2, ![3481, 4096]⟩
abbrev S8192x615 : Shape := ⟨2, ![8192, 615]⟩
abbrev S8192x3481 : Shape := ⟨2, ![8192, 3481]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S615x4096, .f32⟩
  | .hbm, ⟨4, _⟩ => ⟨S3481x4096, .f32⟩
  | .hbm, ⟨5, _⟩ => ⟨S8192x615, .f32⟩
  | .hbm, ⟨6, _⟩ => ⟨S8192x3481, .f32⟩
  | .hbm, ⟨7, _⟩ => ⟨S8192x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S4x2048x4096_S8192x4096 : S4x2048x4096.ShapeCasts S8192x4096
  slices_S4096x4096_S615x4096_0_0 : S4096x4096.Slices ![0, 0] S615x4096
  slices_S4096x4096_S3481x4096_615_0 : S4096x4096.Slices ![615, 0] S3481x4096
  concatenates_S8192x615_S8192x3481_S8192x4096_d1 : Shape.Concatenates [S8192x615, S8192x3481] S8192x4096 1
  shapeCasts_S8192x4096_S4x2048x4096 : S8192x4096.ShapeCasts S4x2048x4096
  dot_S8192x4096_S615x4096_S8192x615_1_1_0_0_n_n_wf : DotDims.WF S8192x4096 S615x4096 S8192x615 [1] [1] [0] [0] [] []
  dot_S8192x4096_S3481x4096_S8192x3481_1_1_0_0_n_n_wf : DotDims.WF S8192x4096 S3481x4096 S8192x3481 [1] [1] [0] [0] [] []

variable [Facts₀]

def dot_S8192x4096_S615x4096_S8192x615_1_1_0_0_n_n : DotDims S8192x4096 S615x4096 S8192x615 where
  lhsContracting := [1]
  rhsContracting := [1]
  lhsNonContracting := [0]
  rhsNonContracting := [0]
  lhsBatch := []
  rhsBatch := []
  wf := dot_S8192x4096_S615x4096_S8192x615_1_1_0_0_n_n_wf
def dot_S8192x4096_S3481x4096_S8192x3481_1_1_0_0_n_n : DotDims S8192x4096 S3481x4096 S8192x3481 where
  lhsContracting := [1]
  rhsContracting := [1]
  lhsNonContracting := [0]
  rhsNonContracting := [0]
  lhsBatch := []
  rhsBatch := []
  wf := dot_S8192x4096_S3481x4096_S8192x3481_1_1_0_0_n_n_wf

class Facts : Prop extends Facts₀ where

variable [Facts]
-- ==== Proof.RowDot.lean ====
/-
  The mathematics both programs compute, stated once over plain index functions.

  With `X` an 8192 × 4096 array and `W` a 4096 × 4096 array of extended reals, the product of `X` with the
  transpose of `W` has at (r, o) the sum over the 4096 columns i of X[r, i] · W[o, i] (`rowDot`, `prodT`).
  The 4096 columns split into four consecutive stretches of 1024 (`col k l` is column 1024 k + l); the sum over
  the first n stretches is `partialDot … n`, it grows by one stretch's sum `blockDot` at a time, and after four
  stretches it is the whole sum (`partialDot_four`): a finite sum in a commutative monoid regrouped, no law of
  the extended reals beyond commutativity and associativity of addition.
-/
import Idealize.ShloMosaic.Lib.ValueIdx
import Idealize.ShloMosaic.PureOps.Ideal.Laws

noncomputable section

open scoped BigOperators

namespace Cert.RowDot

open Idealize.ShloMosaic Idealize.ShloMosaic.ValueIdx

/-- The left operand's shape: 8192 rows of 4096 columns. -/
abbrev SX : Shape := ⟨2, ![8192, 4096]⟩
/-- The right operand's shape: 4096 rows of 4096 columns. -/
abbrev SW : Shape := ⟨2, ![4096, 4096]⟩

/-- Row `r` of `X` against row `o` of `W`: the sum over all 4096 columns of the products. -/
def rowDot (X : SX.Idx → EReal) (W : SW.Idx → EReal) (r : Fin 8192) (o : Fin 4096) : EReal :=
  ∑ i : Fin 4096, X (ix2 r i) * W (ix2 o i)

/-- The product of `X` with the transpose of `W`, entry by entry. -/
def prodT (X : SX.Idx → EReal) (W : SW.Idx → EReal) : SX.Idx → EReal :=
  fun j => rowDot X W (j 0) (j 1)

/-- Column `1024 k + l`: column `l` of the `k`-th stretch of 1024 columns (reduced mod 4096 so that it is a
    column for every natural `k`; for `k < 4` nothing is reduced). -/
def col (k : ℕ) (l : Fin 1024) : Fin 4096 := ⟨(1024 * k + l.val) % 4096, Nat.mod_lt _ (by norm_num)⟩
/-- Row `512 i + p` of `X`: row `p` of the `i`-th band of 512 rows. -/
def rowX (i : ℕ) (p : Fin 512) : Fin 8192 := ⟨(512 * i + p.val) % 8192, Nat.mod_lt _ (by norm_num)⟩
/-- Row `512 j + q` of `W`: row `q` of the `j`-th band of 512 rows. -/
def rowW (j : ℕ) (q : Fin 512) : Fin 4096 := ⟨(512 * j + q.val) % 4096, Nat.mod_lt _ (by norm_num)⟩

/-- The contribution of the `k`-th stretch of 1024 columns to `rowDot`. -/
def blockDot (X : SX.Idx → EReal) (W : SW.Idx → EReal) (r : Fin 8192) (o : Fin 4096) (k : ℕ) : EReal :=
  ∑ l : Fin 1024, X (ix2 r (col k l)) * W (ix2 o (col k l))

/-- The sum over the first `n` stretches. -/
def partialDot (X : SX.Idx → EReal) (W : SW.Idx → EReal) (r : Fin 8192) (o : Fin 4096) (n : ℕ) : EReal :=
  ∑ k ∈ Finset.range n, blockDot X W r o k

theorem partialDot_one (X : SX.Idx → EReal) (W : SW.Idx → EReal) (r : Fin 8192) (o : Fin 4096) :
    partialDot X W r o 1 = blockDot X W r o 0 := Finset.sum_range_one _

theorem partialDot_succ (X : SX.Idx → EReal) (W : SW.Idx → EReal) (r : Fin 8192) (o : Fin 4096) (n : ℕ) :
    partialDot X W r o (n + 1) = partialDot X W r o n + blockDot X W r o n := Finset.sum_range_succ _ _

/-- A sum over 4096 columns is the sum over four stretches of the sums over each stretch's 1024 columns. -/
theorem sum_cols {M : Type*} [AddCommMonoid M] (f : Fin 4096 → M) :
    ∑ i : Fin 4096, f i = ∑ k ∈ Finset.range 4, ∑ l : Fin 1024, f (col k l) := by
  rw [Finset.sum_range (fun k => ∑ l : Fin 1024, f (col k l))]
  rw [← Equiv.sum_comp (finProdFinEquiv (m := 4) (n := 1024)) f, Fintype.sum_prod_type]
  refine Finset.sum_congr rfl fun k _ => Finset.sum_congr rfl fun l _ => congrArg f (Fin.ext ?_)
  have hk := k.isLt
  have hl := l.isLt
  show l.val + 1024 * k.val = (1024 * k.val + l.val) % 4096
  omega

/-- After four stretches the partial sum is the whole sum. -/
theorem partialDot_four (X : SX.Idx → EReal) (W : SW.Idx → EReal) (r : Fin 8192) (o : Fin 4096) :
    partialDot X W r o 4 = rowDot X W r o :=
  (sum_cols fun i => X (ix2 r i) * W (ix2 o i)).symm

end Cert.RowDot

end
-- ==== Proof.Blocks.lean ====
/-
  The blocks the pipeline hands the body, read off the arrays.

  The grid is 16 × 8 × 4, its points numbered row-major: point t has coordinates (t / 32, t / 4 mod 8, t mod 4) =
  (band of 512 rows of X, band of 512 rows of W, stretch of 1024 columns). At point t the left block is rows
  512 (t / 32) + p and columns 1024 (t mod 4) + l of X; the right block the rows 512 (t / 4 mod 8) + q and the same
  columns of W; the output block the rows 512 (t / 32) + p and columns 512 (t / 4 mod 8) + q of the result.
-/
import proofs.«139399_j1717986918494_1_alg».proof.Proof.Gen.KernelIdeal.Frame
import proofs.«139399_j1717986918494_1_alg».proof.Proof.RowDot
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.RowDot

variable {F : FTy → Type} [FloatOps F]
variable (m : (ℓ : Loc nD τ sig) → Buf (Elt F) ℓ)

/-- The left array as the region finds it (X: the first argument flattened to 8192 rows). -/
abbrev xarr (c : Dev nD) : Vec F S8192x4096 .f32 := V m c main_v0
/-- The right array as the region finds it (W: the second argument). -/
abbrev warr (c : Dev nD) : Vec F S4096x4096 .f32 := V m c main_arg1
/-- The left block at point `t`. -/
abbrev xblk (c : Dev nD) (t : Fin cfg0.N) : Vec F S512x1024 .f32 := iblk m c 0 t
/-- The right block at point `t`. -/
abbrev wblk (c : Dev nD) (t : Fin cfg0.N) : Vec F S512x1024 .f32 := iblk m c 1 t

/-- The printed index maps, decided once over the 512 grid points. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8 :=
  (by decide +kernel : ∀ t : Fin grid0.N, _)

/-- The left block's entry (p, l) is X at row 512 (t / 32) + p, column 1024 (t mod 4) + l. -/
theorem xblk_apply (c : Dev nD) (t : Fin cfg0.N) (p : Fin 512) (l : Fin 1024) :
    xblk m c t (ix2 p l) = xarr m c (ix2 (rowX (t.val / 32) p) (col (t.val % 4) l)) := by
  have hN : t.val < 512 := lt_of_lt_of_eq t.isLt N_0
  obtain ⟨e0, e1, -, -, -, -⟩ := idx_facts t
  show iblk m c 0 t (ix2 p l) = _
  unfold iblk
  rw [View.read_apply]
  show V m c main_v0 _ = V m c main_v0 _
  congr 1
  funext a
  apply Fin.ext
  match a with
  | ⟨0, _⟩ =>
    show win0_0.index t (0 : Fin 2) * 512 + 1 * p.val = (512 * (t.val / 32) + p.val) % 8192
    have hp := p.isLt
    omega
  | ⟨1, _⟩ =>
    show win0_0.index t (1 : Fin 2) * 1024 + 1 * l.val = (1024 * (t.val % 4) + l.val) % 4096
    have hl := l.isLt
    omega

/-- The right block's entry (q, l) is W at row 512 (t / 4 mod 8) + q, column 1024 (t mod 4) + l. -/
theorem wblk_apply (c : Dev nD) (t : Fin cfg0.N) (q : Fin 512) (l : Fin 1024) :
    wblk m c t (ix2 q l) = warr m c (ix2 (rowW (t.val / 4 % 8) q) (col (t.val % 4) l)) := by
  have hN : t.val < 512 := lt_of_lt_of_eq t.isLt N_0
  obtain ⟨-, -, e0, e1, -, -⟩ := idx_facts t
  show iblk m c 1 t (ix2 q l) = _
  unfold iblk
  rw [View.read_apply]
  show V m c main_arg1 _ = V m c main_arg1 _
  congr 1
  funext a
  apply Fin.ext
  match a with
  | ⟨0, _⟩ =>
    show win0_1.index t (0 : Fin 2) * 512 + 1 * q.val = (512 * (t.val / 4 % 8) + q.val) % 4096
    have hq := q.isLt
    omega
  | ⟨1, _⟩ =>
    show win0_1.index t (1 : Fin 2) * 1024 + 1 * l.val = (1024 * (t.val % 4) + l.val) % 4096
    have hl := l.isLt
    omega

end Cert.KernelIdeal.Blocks

end
-- ==== Proof.Pieces.lean ====
/-
  What each control case of the body leaves behind, as values.

  The body has three cases along the grid's last axis (the stretch of columns k):
    k = 0      — the scratch is zeroed, then the product of the two blocks is added: it ends at 0 + a · bᵀ;
    k = 1, 2   — the product is added to what the scratch held;
    k = 3      — the same, and the scratch is then copied to the output block.
  Each lemma reads the stores the case's run made back as one value: the last covering store's payload, a load
  after a store reading what was stored.
-/
import proofs.«139399_j1717986918494_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- First stretch of columns: the scratch ends at the step applied to the zero block. -/
theorem scratch_first (c : Dev nD) (i : grid0.Coords) (a3 : Memref sig .tc .vmem S512x1024 .f32) (h3 : a3.IsWhole) (a4 : Memref sig .tc .vmem S512x1024 .f32) (h4 : a4.IsWhole) (a5 : Memref sig .tc .vmem S512x512 .f32) (h5 : a5.IsWhole) (a6 : Memref sig .tc .vmem S512x512 .f32) (h6 : a6.IsWhole) (hc0 : cond0_0 i) (hc1 : ¬cond0_1 i)
    (x0 x1 : Vec F S512x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x512) hz, View.readCov_unit_zero (S := S512x512) _ hz]
  simp only [View.readAt_eq_ld, h3.read_unread, h4.read_unread, View.ld_unit_zero (S := S512x1024) hz]

/-- Middle stretches: the scratch ends at the step applied to what it held. -/
theorem scratch_middle (c : Dev nD) (i : grid0.Coords) (a3 : Memref sig .tc .vmem S512x1024 .f32) (h3 : a3.IsWhole) (a4 : Memref sig .tc .vmem S512x1024 .f32) (h4 : a4.IsWhole) (a5 : Memref sig .tc .vmem S512x512 .f32) (h5 : a5.IsWhole) (a6 : Memref sig .tc .vmem S512x512 .f32) (h6 : a6.IsWhole) (hc0 : ¬cond0_0 i) (hc1 : ¬cond0_1 i)
    (x0 x1 : Vec F S512x1024 .f32) (xs : Vec F S512x512 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S512x1024) hz,
    View.ld_unit_zero (S := S512x512) hz]

/-- Last stretch: the scratch ends at the step applied to what it held … -/
theorem scratch_last (c : Dev nD) (i : grid0.Coords) (a3 : Memref sig .tc .vmem S512x1024 .f32) (h3 : a3.IsWhole) (a4 : Memref sig .tc .vmem S512x1024 .f32) (h4 : a4.IsWhole) (a5 : Memref sig .tc .vmem S512x512 .f32) (h5 : a5.IsWhole) (a6 : Memref sig .tc .vmem S512x512 .f32) (h6 : a6.IsWhole) (hc0 : ¬cond0_0 i) (hc1 : cond0_1 i)
    (x0 x1 : Vec F S512x1024 .f32) (xs : Vec F S512x512 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S512x1024) hz,
    View.ld_unit_zero (S := S512x512) hz]

/-- … and the output block is a copy of it. -/
theorem out_last (c : Dev nD) (i : grid0.Coords) (a3 : Memref sig .tc .vmem S512x1024 .f32) (h3 : a3.IsWhole) (a4 : Memref sig .tc .vmem S512x1024 .f32) (h4 : a4.IsWhole) (a5 : Memref sig .tc .vmem S512x512 .f32) (h5 : a5.IsWhole) (a6 : Memref sig .tc .vmem S512x512 .f32) (h6 : a6.IsWhole) (hc0 : ¬cond0_0 i) (hc1 : cond0_1 i)
    (x0 x1 : Vec F S512x1024 .f32) (xs : Vec F S512x512 .f32) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S512x512) _ hz]
  simp only [View.readAt_eq_ld, h3.read_unread, h4.read_unread, h6.read_unread, View.ld_unit_zero (S := S512x1024) hz,
    View.ld_unit_zero (S := S512x512) hz]

end Cert.KernelIdeal.Pieces

end
-- ==== Proof.AccStep.lean ====
/-
  One step of the accumulation, read at an entry.

  The body's second store writes `acc + a · bᵀ`: the 512 × 1024 blocks `a` and `b` are narrowed to bf16 (the
  identity on extended reals), multiplied on the matrix unit into a zero accumulator contracting the second axis
  of both, and the product is added to what the scratch held. At entry (p, q) that is
  acc[p, q] + Σ_l a[p, l] · b[q, l]. The first store (taken only at the first stretch of columns) writes zeros.
-/
import proofs.«139399_j1717986918494_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.AccStep

open Cert.KernelIdeal Cert.KernelIdeal.Gen Idealize.ShloMosaic Idealize.ShloMosaic.ValueIdx

/-- The product's left operand is read at the output's row … -/
theorem lhs_axis0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
/-- … and at the contracted column; -/
theorem lhs_axis1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- the right operand at the output's column, as ITS row, … -/
theorem rhs_axis0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
/-- … and at the same contracted column. -/
theorem rhs_axis1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The matrix unit's product into the zero accumulator at (p, q): row p of `a` against row q of `b`. -/
theorem matmul_zero_apply (a b : FVec Ideal S512x1024 .bf16) (p q : Fin 512) :
    matmul dot_S512x1024_S512x1024_S512x512_1_1_0_0_n_n none a b (constant (F := Ideal) S512x512 .f32 0x00000000#32) (ix2 p q)
      = ∑ l : Fin 1024, a (ix2 p l) * b (ix2 q l) := by
  show FloatOps.matmul dot_S512x1024_S512x1024_S512x512_1_1_0_0_n_n none a b (constant (F := Ideal) S512x512 .f32 0x00000000#32) (ix2 p q) = _
  rw [Ideal.matmul_constant_zero_apply, ← Equiv.sum_comp (contrEquiv1 dot_S512x1024_S512x1024_S512x512_1_1_0_0_n_n 1024 rfl rfl).symm]
  refine Finset.sum_congr rfl fun l _ => ?_
  have hl := contrEquiv1_symm_val dot_S512x1024_S512x1024_S512x512_1_1_0_0_n_n 1024 rfl rfl l
  have el : dot_S512x1024_S512x1024_S512x512_1_1_0_0_n_n.lhsIdx (ix2 p q) ((contrEquiv1 dot_S512x1024_S512x1024_S512x512_1_1_0_0_n_n 1024 rfl rfl).symm l) = ix2 p l := funext fun x => Fin.ext (by
    match x with
    | ⟨0, _⟩ => exact lhs_axis0 _ _
    | ⟨1, _⟩ => exact (lhs_axis1 _ _).trans hl)
  have er : dot_S512x1024_S512x1024_S512x512_1_1_0_0_n_n.rhsIdx (ix2 p q) ((contrEquiv1 dot_S512x1024_S512x1024_S512x512_1_1_0_0_n_n 1024 rfl rfl).symm l) = ix2 q l := funext fun x => Fin.ext (by
    match x with
    | ⟨0, _⟩ => exact rhs_axis0 _ _
    | ⟨1, _⟩ => exact (rhs_axis1 _ _).trans hl)
  rw [el, er]

/-- The accumulating store's value at (p, q): what the scratch held there plus row p of `a` against row q of `b`. -/
theorem step_apply (a b : FVec Ideal S512x1024 .f32) (acc : FVec Ideal S512x512 .f32) (p q : Fin 512) :
    k0_pay2 (F := Ideal) a b acc (ix2 p q) = acc (ix2 p q) + ∑ l : Fin 1024, a (ix2 p l) * b (ix2 q l) := by
  unfold k0_pay2
  simp only [shapeCast_self]
  rw [addf_apply, matmul_zero_apply]
  rfl

/-- The resetting store's value: zero everywhere. -/
theorem reset_apply (p q : Fin 512) : k0_pay1 (F := Ideal) (ix2 p q) = 0 := by
  unfold k0_pay1
  simp only [shapeCast_self]
  show Ideal.ofBits .f32 0x00000000#32 = 0
  exact Ideal.ofBits_zero_f32

end Cert.KernelIdeal.AccStep

end
-- ==== Proof.Accum.lean ====
/-
  The accumulation across the grid, at the ideal instance.

  After grid point t — band i = t / 32 of X's rows, band j = t / 4 mod 8 of W's rows, stretch k = t mod 4 of the
  columns — the scratch holds at (p, q) the sum over the first k + 1 stretches of columns of
  X[512 i + p, ·] · W[512 j + q, ·] (`accAt_eq`, by induction on the point: at k = 0 the scratch is reset and one
  stretch's sum added to zero; at k > 0 the bands are those of the point before and one more stretch is added).
  At k = 3 the output block is a copy of the scratch, and four stretches are all 4096 columns (`outAt_eq`).
-/
import proofs.«139399_j1717986918494_1_alg».proof.Proof.Blocks
import proofs.«139399_j1717986918494_1_alg».proof.Proof.Pieces
import proofs.«139399_j1717986918494_1_alg».proof.Proof.AccStep

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.RowDot Cert.KernelIdeal.Blocks Cert.KernelIdeal.Pieces Cert.KernelIdeal.AccStep

variable (m : (ℓ : Loc nD τ sig) → Buf (Elt Ideal) ℓ)

/-- What the scratch holds after point `n`. -/
abbrev accAt (c : Dev nD) (n : ℕ) (hn : n < cfg0.N) : FVec Ideal S512x512 .f32 := (outsAt0 m c n hn).2
/-- What the output's staging block holds after point `n`. -/
abbrev outAt (c : Dev nD) (n : ℕ) (hn : n < cfg0.N) : FVec Ideal S512x512 .f32 := (outsAt0 m c n hn).1

/-- This point's product, read off the arrays: one stretch's sum. -/
theorem point_term (c : Dev nD) (t : Fin cfg0.N) (p q : Fin 512) :
    (∑ l : Fin 1024, xblk m c t (ix2 p l) * wblk m c t (ix2 q l))
      = blockDot (xarr m c) (warr m c) (rowX (t.val / 32) p) (rowW (t.val / 4 % 8) q) (t.val % 4) :=
  Finset.sum_congr rfl fun l _ => congrArg₂ (· * ·) (xblk_apply m c t p l) (wblk_apply m c t q l)

/-- The scratch after point `t`: the partial sum over the stretches up to the point's own. -/
theorem accAt_eq (c : Dev nD) (n : ℕ) : ∀ (t : Fin cfg0.N), t.val = n → ∀ (p q : Fin 512),
    accAt m c t.val t.isLt (ix2 p q)
      = partialDot (xarr m c) (warr m c) (rowX (t.val / 32) p) (rowW (t.val / 4 % 8) q) (t.val % 4 + 1) := by
  induction n using Nat.strong_induction_on with
  | _ n ih =>
    intro t ht p q
    have hN : t.val < 512 := lt_of_lt_of_eq t.isLt N_0
    by_cases h0 : t.val % 4 = 0
    · have h1 : ¬t.val % 4 = 3 := by omega
      show (outsAt0 m c t.val t.isLt).2 (ix2 p q) = _
      rw [outsAt0_A m c t h0 h1]
      dsimp only
      refine (congrFun (scratch_first (F := Ideal) c (grid0.coords t) (ms0_0 t) (hs0_0 t) (ms0_1 t) (hs0_1 t) (ms0_2 t) (hs0_2 t) scM0_0 (Memref.isWhole_whole _) _ _ (xblk m c t) (wblk m c t)) (ix2 p q)).trans ?_
      refine (step_apply (xblk m c t) (wblk m c t) (k0_pay1 (F := Ideal)) p q).trans ?_
      rw [reset_apply, zero_add, point_term, h0]
      exact (partialDot_one _ _ _ _).symm
    · have hlt : t.val - 1 < cfg0.N := lt_of_le_of_lt (Nat.sub_le _ _) t.isLt
      have ihp := ih (t.val - 1) (by omega) ⟨t.val - 1, hlt⟩ rfl p q
      have e1 : (t.val - 1) / 32 = t.val / 32 := by omega
      have e2 : (t.val - 1) / 4 % 8 = t.val / 4 % 8 := by omega
      have e3 : (t.val - 1) % 4 + 1 = t.val % 4 := by omega
      dsimp only at ihp
      rw [e1, e2, e3] at ihp
      show (outsAt0 m c t.val t.isLt).2 (ix2 p q) = _
      by_cases h1 : t.val % 4 = 3
      · rw [outsAt0_C m c t h0 h1]
        dsimp only
        refine (congrFun (scratch_last (F := Ideal) c (grid0.coords t) (ms0_0 t) (hs0_0 t) (ms0_1 t) (hs0_1 t) (ms0_2 t) (hs0_2 t) scM0_0 (Memref.isWhole_whole _) _ _ (xblk m c t) (wblk m c t) (accAt m c (t.val - 1) hlt)) (ix2 p q)).trans ?_
        refine (step_apply (xblk m c t) (wblk m c t) (accAt m c (t.val - 1) hlt) p q).trans ?_
        rw [ihp, point_term]
        exact (partialDot_succ _ _ _ _ _).symm
      · rw [outsAt0_B m c t h0 h1]
        dsimp only
        refine (congrFun (scratch_middle (F := Ideal) c (grid0.coords t) (ms0_0 t) (hs0_0 t) (ms0_1 t) (hs0_1 t) (ms0_2 t) (hs0_2 t) scM0_0 (Memref.isWhole_whole _) _ _ (xblk m c t) (wblk m c t) (accAt m c (t.val - 1) hlt)) (ix2 p q)).trans ?_
        refine (step_apply (xblk m c t) (wblk m c t) (accAt m c (t.val - 1) hlt) p q).trans ?_
        rw [ihp, point_term]
        exact (partialDot_succ _ _ _ _ _).symm

/-- At the last stretch the output block is the whole sum over the 4096 columns. -/
theorem outAt_eq (c : Dev nD) (t : Fin cfg0.N) (h3 : t.val % 4 = 3) (p q : Fin 512) :
    outAt m c t.val t.isLt (ix2 p q)
      = rowDot (xarr m c) (warr m c) (rowX (t.val / 32) p) (rowW (t.val / 4 % 8) q) := by
  have h0 : ¬t.val % 4 = 0 := by omega
  have hlt : t.val - 1 < cfg0.N := lt_of_le_of_lt (Nat.sub_le _ _) t.isLt
  have hacc := accAt_eq m c t.val t rfl p q
  rw [h3, partialDot_four] at hacc
  refine Eq.trans ?_ hacc
  show (outsAt0 m c t.val t.isLt).1 (ix2 p q) = (outsAt0 m c t.val t.isLt).2 (ix2 p q)
  rw [outsAt0_C m c t h0 h3]
  dsimp only
  refine (congrFun (out_last (F := Ideal) c (grid0.coords t) (ms0_0 t) (hs0_0 t) (ms0_1 t) (hs0_1 t) (ms0_2 t) (hs0_2 t) scM0_0 (Memref.isWhole_whole _) _ _ (xblk m c t) (wblk m c t) (accAt m c (t.val - 1) hlt)) (ix2 p q)).trans ?_
  exact (congrFun (scratch_last (F := Ideal) c (grid0.coords t) (ms0_0 t) (hs0_0 t) (ms0_1 t) (hs0_1 t) (ms0_2 t) (hs0_2 t) scM0_0 (Memref.isWhole_whole _) _ _ (xblk m c t) (wblk m c t) (accAt m c (t.val - 1) hlt)) (ix2 p q)).symm

end Cert.KernelIdeal.Accum

end
-- ==== Proof.KernelResult.lean ====
/-
  The kernel's result array, and the program's result.

  The output window is written back at the points of the last stretch of columns (t mod 4 = 3) only, and there its
  block — rows 512 (t / 32) + p, columns 512 (t / 4 mod 8) + q — holds the whole sums `rowDot` of those rows of X
  and W: block t of the product `prodT X W`. The 16 × 8 blocks at those points tile the 8192 × 4096 array, so after
  the run the array IS the product; @main's last line reshapes it to 4 × 2048 × 4096, and X itself is the first
  argument reshaped to 8192 × 4096.
-/
import proofs.«139399_j1717986918494_1_alg».proof.Proof.Accum
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.RowDot Cert.KernelIdeal.Blocks Cert.KernelIdeal.Accum

variable (m : (ℓ : Loc nD τ sig) → Buf (Elt Ideal) ℓ) (ρ : Dev nD → PrngReg)

/-- The output block at a point of the last stretch, at any of its entries. -/
theorem outAt_block (c : Dev nD) (t : Fin cfg0.N) (h3 : t.val % 4 = 3) (y : S512x512.Idx) :
    outAt m c t.val t.isLt y
      = prodT (xarr m c) (warr m c) (ix2 (rowX (t.val / 32) (y 0)) (rowW (t.val / 4 % 8) (y 1))) := by
  obtain ⟨p, q, rfl⟩ : ∃ (p q : Fin 512), y = ix2 p q := ⟨y 0, y 1, eq_ix2 y⟩
  exact outAt_eq m c t h3 p q

/-- What point `t` writes back is block `t` of the product. -/
theorem flushed_eq (c : Dev nD) (t : Fin cfg0.N) (hf : (cfg0.win 2).flush t = true) :
    (dats m 0 c).flushed 2 t = ((cfg0.win 2).blk t).view.read (Elt Ideal) (prodT (xarr m c) (warr m c)) := by
  have h3 : t.val % 4 = 3 := (flush0_2 t).mp hf
  have hN : t.val < 512 := lt_of_lt_of_eq t.isLt N_0
  obtain ⟨-, -, -, -, e0, e1⟩ := idx_facts t
  show (cfg0.win 2).cut (grid0.coords t) ((dats m 0 c).after 2 t) = _
  rw [after0_2]
  funext y
  show outAt m c t.val t.isLt y = prodT (xarr m c) (warr m c) (((cfg0.win 2).blk t).view.emb y)
  refine (outAt_block m c t h3 y).trans (congrArg (prodT (xarr m c) (warr m c)) ?_)
  funext a
  apply Fin.ext
  match a with
  | ⟨0, _⟩ =>
    show (512 * (t.val / 32) + (y 0).val) % 8192 = win0_2.index t (0 : Fin 2) * 512 + 1 * (y 0).val
    have hy : (y 0).val < 512 := (y 0).isLt
    omega
  | ⟨1, _⟩ =>
    show (512 * (t.val / 4 % 8) + (y 1).val) % 4096 = win0_2.index t (1 : Fin 2) * 512 + 1 * (y 1).val
    have hy : (y 1).val < 512 := (y 1).isLt
    omega

/-- An index of the array is in point `t`'s block iff each coordinate is in the block's range on its axis. -/
theorem mem_blk (t : Fin cfg0.N) (i : S8192x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v1).slice (win0_2.rect t)).set ↔ _
  rw [View.set_slice_whole, Rect.mem_set_unit]
  exact Iff.rfl

/-- Every entry (r, o) of the array is in the block written back at the point (r / 512, o / 512, 3). -/
theorem covered (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  obtain ⟨tv, htv⟩ : ∃ tv : ℕ, tv = 32 * ((i 0).val / 512) + 4 * ((i 1).val / 512) + 3 := ⟨_, rfl⟩
  have hlt : tv < cfg0.N := lt_of_lt_of_eq (by omega : tv < 512) N_0.symm
  obtain ⟨-, -, -, -, e0, e1⟩ := idx_facts ⟨tv, hlt⟩
  refine ⟨⟨tv, hlt⟩, (flush0_2 _).mpr (by show tv % 4 = 3; omega), ?_⟩
  rw [mem_blk]
  intro a
  match a with
  | ⟨0, _⟩ =>
    show win0_2.index ⟨tv, hlt⟩ (0 : Fin 2) * 512 ≤ (i 0).val ∧ (i 0).val < win0_2.index ⟨tv, hlt⟩ (0 : Fin 2) * 512 + 512
    rw [e0]
    show tv / 32 * 512 ≤ (i 0).val ∧ (i 0).val < tv / 32 * 512 + 512
    omega
  | ⟨1, _⟩ =>
    show win0_2.index ⟨tv, hlt⟩ (1 : Fin 2) * 512 ≤ (i 1).val ∧ (i 1).val < win0_2.index ⟨tv, hlt⟩ (1 : Fin 2) * 512 + 512
    rw [e1]
    show tv / 4 % 8 * 512 ≤ (i 1).val ∧ (i 1).val < tv / 4 % 8 * 512 + 512
    omega

/-- After the run the result window's array is the product. -/
theorem final (c : Dev nD) : (dats m 0 c).arrAt 2 cfg0.N = prodT (xarr m c) (warr m c) :=
  (dats m 0 c).arrAt_eq_of_cover 2 (prodT (xarr m c) (warr m c)) (flushed_eq m c) covered

/-- X is the first argument reshaped to 8192 × 4096. -/
theorem xarr_eq (c : Dev nD) :
    xarr m c = shapeCast S8192x4096 (m ((c.tc : Thread nD τ).loc main_arg0)) shapeCasts_S4x2048x4096_S8192x4096 := by
  show StableHlo.after hostOps0 (fun b => m (c, b)) (Proc.devRef .tc main_v0) = _
  after_results
  rfl

/-- W is the second argument. -/
theorem warr_eq (c : Dev nD) : warr m c = m ((c.tc : Thread nD τ).loc main_arg1) := V_main_arg1 m c

/-- @main's result: the product reshaped to 4 × 2048 × 4096. -/
theorem result_eq (c : Dev nD) :
    Pipeline.afterTail₀ cfgs (dats m) 0 (V0 m) [hostOps1] c main_v2
      = shapeCast S4x2048x4096 (prodT (xarr m c) (warr m c)) shapeCasts_S8192x4096_S4x2048x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = prodT (xarr m c) (warr m c) :=
    (Pipeline.withArrays_arr spec0 launch0.win.arr_inj c _ _ 2).trans (final m c)
  show shapeCast S4x2048x4096 (Pipeline.withArrays (cfgs 0).spec c (V0 m c) (fun w => (dats m 0 c).arrAt w (cfgs 0).N)
    (Proc.devRef .tc main_v1)) shapeCasts_S8192x4096_S4x2048x4096 = _
  rw [e]

/-- The run, read: the result at the reshaped product of the reshaped first argument with the transpose of the
    second, the arguments unchanged. -/
theorem run : θ_run defs (onTc (τ := τ) (main (F := Ideal))) ⟨m, fun _ => 0, ρ⟩ fun r => ∀ c : Dev nD,
      r.2.mem ((c.tc : Thread nD τ).loc main_v2)
        = shapeCast S4x2048x4096 (prodT (shapeCast S8192x4096 (m ((c.tc : Thread nD τ).loc main_arg0)) shapeCasts_S4x2048x4096_S8192x4096)
            (m ((c.tc : Thread nD τ).loc main_arg1))) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans
          ((result_eq m c).trans (by rw [xarr_eq, warr_eq])),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.Result

end
-- ==== Proof.RefProduct.lean ====
/-
  The reference computes the same product.

  The reference cuts W into its first 615 rows and its remaining 3481 rows, multiplies the flattened X by the
  transpose of each, and joins the two results along the columns. Column o of the joined array comes from the
  first product at column o when o < 615 and from the second at column o − 615 otherwise; either way it is the
  sum over all 4096 columns i of X[r, i] · W[o, i], since the second slice's row o − 615 is W's row o.
-/
import proofs.«139399_j1717986918494_1_alg».proof.Proof.Gen.ReferenceIdeal.Read
import proofs.«139399_j1717986918494_1_alg».proof.Proof.RowDot

noncomputable section

open scoped BigOperators

namespace Cert.ReferenceIdeal.Product

open Cert.ReferenceIdeal Cert.ReferenceIdeal.Gen Cert.ReferenceIdeal.Read Idealize.ShloMosaic
open Idealize.ShloMosaic.ValueIdx Cert.RowDot

/-- The joined array is the product of the flattened first argument with the transpose of the second. -/
theorem joined_eq (x0 : (⟨S4x2048x4096, .f32⟩ : BufTy).Contents (Elt Ideal)) (x1 : (⟨S4096x4096, .f32⟩ : BufTy).Contents (Elt Ideal)) :
    val_main_v5 (F := Ideal) x0 x1 = prodT (val_main_v0 (F := Ideal) x0) x1 := by
  funext j
  obtain ⟨r, o, rfl⟩ : ∃ (r : Fin 8192) (o : Fin 4096), j = ix2 r o := ⟨j 0, j 1, eq_ix2 j⟩
  unfold val_main_v5
  by_cases ho : o.val < 615
  · rw [concatenate_pair_apply_left (t := S8192x4096) (s₁ := S8192x615) (s₂ := S8192x3481) (1 : Fin 2) _ _ _ (ix2 r o) rfl (ix2 r (⟨o.val, ho⟩ : Fin 615))
      (fun b => match b with | ⟨0, _⟩ => rfl | ⟨1, _⟩ => rfl)]
    rw [val_main_v3_apply]
    unfold prodT rowDot
    refine Finset.sum_congr rfl fun k _ => ?_
    rw [val_main_v1_apply]
    refine congrArg₂ (· * ·) (congrArg (val_main_v0 (F := Ideal) x0) ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · have ho' : o.val - 615 < 3481 := by have := o.isLt; omega
    rw [concatenate_pair_apply_right (t := S8192x4096) (s₁ := S8192x615) (s₂ := S8192x3481) (1 : Fin 2) _ _ _ (ix2 r o) rfl rfl (ix2 r (⟨o.val - 615, ho'⟩ : Fin 3481))
      (fun b hb => match b, hb with | ⟨0, _⟩, _ => rfl | ⟨1, _⟩, hb => absurd rfl hb)
      (by show o.val - 615 + 615 = o.val; omega)]
    rw [val_main_v4_apply]
    unfold prodT rowDot
    refine Finset.sum_congr rfl fun k _ => ?_
    rw [val_main_v2_apply]
    refine congrArg₂ (· * ·) (congrArg (val_main_v0 (F := Ideal) x0) ?_) (congrArg x1 ?_)
    · exact funext fun a => Fin.ext (by match a with | ⟨0, _⟩ => rfl | ⟨1, _⟩ => rfl)
    · funext a
      apply Fin.ext
      match a with
      | ⟨0, _⟩ => show 615 + (o.val - 615) = o.val; omega
      | ⟨1, _⟩ => rfl

end Cert.ReferenceIdeal.Product

end
-- ==== Proof.lean ====
/- The kernel multiplies the first argument, flattened to 8192 rows of 4096 columns, by the transpose of the second:
   result[r, o] = Σ_i X[r, i] · W[o, i]. It does so block by block — 16 × 8 output blocks of 512 × 512, each
   accumulated in a scratch over four stretches of 1024 columns, zeroed at the first stretch and copied out at the
   last — with the operands narrowed to bf16 for the matrix unit, which over the extended reals changes nothing.
   The reference splits the second argument's rows into the first 615 and the remaining 3481, multiplies by each
   part and joins the results along the columns. Both are the same array: a finite sum regrouped (four stretches of
   1024 columns are the 4096 columns), which in the extended reals needs only that addition is commutative and
   associative, so the inputs' finiteness is never used. Both programs reshape the first argument the same way at
   the start and the product the same way at the end.

   The three frames: the two kernel programs' are the generated frame certificates; the reference, a straight line
   of host operations, runs by its generated run. Nothing was rewritten by the idealization, so `preserves` is
   trivial. `algebraic`: the kernel's run ends at the reshaped product (Proof/KernelResult.lean, over the
   accumulation of Proof/Accum.lean), the reference's at the same (Proof/RefProduct.lean). -/
import proofs.«139399_j1717986918494_1_alg».proof.Defs
import proofs.«139399_j1717986918494_1_alg».proof.Proof.Gen.Kernel
import proofs.«139399_j1717986918494_1_alg».proof.Proof.Gen.Kernel.Skeleton
import proofs.«139399_j1717986918494_1_alg».proof.Proof.Gen.Kernel.Launch
import proofs.«139399_j1717986918494_1_alg».proof.Proof.Gen.Kernel.Points
import proofs.«139399_j1717986918494_1_alg».proof.Proof.Gen.Kernel.Frame
import proofs.«139399_j1717986918494_1_alg».proof.Proof.Gen.KernelIdeal
import proofs.«139399_j1717986918494_1_alg».proof.Proof.Gen.KernelIdeal.Skeleton
import proofs.«139399_j1717986918494_1_alg».proof.Proof.Gen.KernelIdeal.Launch
import proofs.«139399_j1717986918494_1_alg».proof.Proof.Gen.KernelIdeal.Points
import proofs.«139399_j1717986918494_1_alg».proof.Proof.Gen.KernelIdeal.Frame
import proofs.«139399_j1717986918494_1_alg».proof.Proof.Gen.ReferenceIdeal
import proofs.«139399_j1717986918494_1_alg».proof.Proof.Gen.Pre_finite_inputs
import proofs.«139399_j1717986918494_1_alg».proof.Proof.Gen.ReferenceIdeal.Run
import proofs.«139399_j1717986918494_1_alg».proof.Proof.Gen.ReferenceIdeal.Read
import proofs.«139399_j1717986918494_1_alg».proof.Proof.KernelResult
import proofs.«139399_j1717986918494_1_alg».proof.Proof.RefProduct
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the product of the flattened first argument with the transpose of the second, reshaped. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v6_eq _ _).trans ?_
  unfold Cert.ReferenceIdeal.Read.val_main_v6
  rw [Cert.ReferenceIdeal.Product.joined_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
